-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x10000 : Shape := ⟨2, ![128, 10000]⟩
abbrev S10000x10000 : Shape := ⟨2, ![10000, 10000]⟩
abbrev S10000x128 : Shape := ⟨2, ![10000, 128]⟩
abbrev S_ : Shape := ⟨0, ![]⟩

class Facts : Prop where
  bcast_S_S128x10000 : S_.BroadcastsInDim S128x10000 (![] : Fin 0 → Fin S128x10000.rank)
  reducesTo_S128x10000_S_d0_1 : S128x10000.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S128x10000 .f32) (main_arg1 : FVec F S10000x10000 .f32) (main_arg2 : FVec F S10000x128 .f32) : IVec S_ 1 :=
  let main_v0 : FVec F S128x10000 .f32 := Host.absf main_arg0
  let main_cst : FVec F S_ .f32 := constant S_ .f32 0x7F800000#32
  let main_v1 : FVec F S128x10000 .f32 := broadcastInDim S128x10000 ![] bcast_S_S128x10000 main_cst
  let main_v2 : IVec S128x10000 1 := cmpf .olt main_v0 main_v1
  let main_c : IVec S_ 1 := constantI S_ 1 1#1
  let main_v3 : IVec S_ 1 := (fun x v => Host.reduce IntOp.andi x v reducesTo_S128x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  main_v13
-- ==== Kernel.lean ====
abbrev S128x10000 : Shape := ⟨2, ![128, 10000]⟩
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩

abbrev nBuf : Space → Nat
  | .hbm => 6
  | .vmem => 6
  | .smem => 0
  | _ => 0

abbrev bufTy : (tb : Table) → Fin (tcTables nBuf tb) → BufTy
  | .hbm, ⟨0, _⟩ => ⟨S128x10000, .f32⟩
  | .hbm, ⟨1, _⟩ => ⟨S10000x10000, .f32⟩
  | .hbm, ⟨2, _⟩ => ⟨S10000x128, .f32⟩
  | .hbm, ⟨3, _⟩ => ⟨S10000x128, .f32⟩
  | .hbm, ⟨4, _⟩ => ⟨S10000x128, .bf16⟩
  | .hbm, ⟨5, _⟩ => ⟨S128x128, .f32⟩
  | .local _ .vmem, ⟨0, _⟩ => ⟨S10000x128, .bf16⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | _, _ => ⟨S128x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S128x10000_S10000x128_1_0 : S128x10000.Transposes [1, 0] S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x128_S128x128 : S128x128.ShapeCasts S128x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S400x128_S128x128_0_0_1_1_n_n_wf : DotDims.WF S400x128 S400x128 S128x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S400x128_S128x128_0_0_1_1_n_n : DotDims S400x128 S400x128 S128x128 where
  lhsContracting := [0]
  rhsContracting := [0]
  lhsNonContracting := [1]
  rhsNonContracting := [1]
  lhsBatch := []
  rhsBatch := []
  wf := dot_S400x128_S400x128_S128x128_0_0_1_1_n_n_wf

abbrev win0_0 : Pipeline.Window sig grid0 :=
  Pipeline.Window.ofSpec (Memref.whole main_v1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x10000 : Shape := ⟨2, ![128, 10000]⟩
abbrev S10000x10000 : Shape := ⟨2, ![10000, 10000]⟩
abbrev S10000x128 : Shape := ⟨2, ![10000, 128]⟩
abbrev S128x128 : Shape := ⟨2, ![128, 128]⟩

abbrev nBuf : Space → Nat
  | .hbm => 7
  | .vmem => 0
  | .smem => 0
  | _ => 0

abbrev bufTy : (tb : Table) → Fin (tcTables nBuf tb) → BufTy
  | .hbm, ⟨0, _⟩ => ⟨S128x10000, .f32⟩
  | .hbm, ⟨1, _⟩ => ⟨S10000x10000, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S128x10000, .f32⟩
  | .hbm, ⟨6, _⟩ => ⟨S128x128, .f32⟩
  | _, _ => ⟨S128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S128x10000_S10000x128_1_0 : S128x10000.Transposes [1, 0] S10000x128
  transposes_S10000x128_S128x10000_1_0 : S10000x128.Transposes [1, 0] S128x10000
  dot_S10000x10000_S10000x128_S10000x128_1_0_0_1_n_n_wf : DotDims.WF S10000x10000 S10000x128 S10000x128 [1] [0] [0] [1] [] []
  dot_S128x10000_S10000x128_S128x128_1_0_0_1_n_n_wf : DotDims.WF S128x10000 S10000x128 S128x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«154773_g1185410973709_cont_fleet_179_4_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.Spec.lean ====
/-
  The graph convolution as one function of the three argument arrays, and the reference's term read at an entry.

  For x of shape [128, 10000], adj of shape [10000, 10000] and w of shape [10000, 128], row R of the aggregate is
  agg R d = ∑ k, adj (R, k) · x (d, k), and the result is out (d, f) = ∑ R, agg R d · w (R, f).
  The reference computes exactly this: it transposes x, multiplies adj by it (entry (R, d) of that product is agg R d),
  transposes the product, and multiplies by w. Both products are plain matrix products, so each entry is a finite sum
  over the contraction coordinate, and each transpose only swaps the two coordinates of an index.
-/
import Idealize.ShloMosaic.Lib.ValueIdx
import Idealize.ShloMosaic.Lib.ValueLayout
import Idealize.ShloMosaic.PureOps.Ideal.Laws
import proofs.«154773_g1185410973709_cont_fleet_179_4_alg».proof.Proof.LibDotPlain

noncomputable section

namespace Cert.GraphConv

open Idealize.ShloMosaic Idealize.ShloMosaic.ValueIdx

/-- Row `R` of the aggregate at feature `d`: the neighbours' weights against feature `d` of every node. -/
def agg (x : FVec Ideal ⟨2, ![128, 10000]⟩ .f32) (adj : FVec Ideal ⟨2, ![10000, 10000]⟩ .f32) (R : Fin 10000) (d : Fin 128) : EReal :=
  ∑ k : Fin 10000, adj (ix2 R k) * x (ix2 d k)

/-- One node's contribution to entry (d, f) of the result. -/
def term (x : FVec Ideal ⟨2, ![128, 10000]⟩ .f32) (adj : FVec Ideal ⟨2, ![10000, 10000]⟩ .f32)
    (w : FVec Ideal ⟨2, ![10000, 128]⟩ .f32) (d f : Fin 128) (R : Fin 10000) : EReal :=
  agg x adj R d * w (ix2 R f)

/-- The result: entry (d, f) sums every node's contribution. -/
def conv (x : FVec Ideal ⟨2, ![128, 10000]⟩ .f32) (adj : FVec Ideal ⟨2, ![10000, 10000]⟩ .f32)
    (w : FVec Ideal ⟨2, ![10000, 128]⟩ .f32) : FVec Ideal ⟨2, ![128, 128]⟩ .f32 :=
  fun i => ∑ R : Fin 10000, term x adj w (i 0) (i 1) R

/-- The reference's composed term, read at entry (d, f), is the result. -/
theorem reference_apply (x : FVec Ideal ⟨2, ![128, 10000]⟩ .f32) (adj : FVec Ideal ⟨2, ![10000, 10000]⟩ .f32)
    (w : FVec Ideal ⟨2, ![10000, 128]⟩ .f32)
    (h1 : (⟨2, ![128, 10000]⟩ : Shape).Transposes [1, 0] ⟨2, ![10000, 128]⟩)
    (h2 : (⟨2, ![10000, 128]⟩ : Shape).Transposes [1, 0] ⟨2, ![128, 10000]⟩) (d f : Fin 128) :
    Host.dotGeneral (DotDims.plain 128 10000 128) none
        (transpose ⟨2, ![128, 10000]⟩ [1, 0]
          (Host.dotGeneral (DotDims.plain 10000 10000 128) none adj (transpose ⟨2, ![10000, 128]⟩ [1, 0] x h1)) h2)
        w (ix2 d f)
      = conv x adj w (ix2 d f) := by
  refine (DotPlain.dotGeneral_apply none _ w d f).trans ?_
  refine Finset.sum_congr rfl fun R _ => ?_
  refine congrArg (· * w (ix2 R f)) ?_
  refine (transpose_ix2_apply _ h2 d R).trans ?_
  refine (DotPlain.dotGeneral_apply none adj _ R d).trans ?_
  refine Finset.sum_congr rfl fun k _ => ?_
  exact congrArg (adj (ix2 R k) * ·) (transpose_ix2_apply x h1 k d)

end Cert.GraphConv

end
-- ==== Proof.LibMatmulRows.lean ====
/-
  A general lemma. The matrix product that contracts the FIRST axis of both operands: a [K, M] array against a [K, N]
  array (the left operand read transposed, no batch axes), accumulated into the zero array and read at the exact
  instance, is at entry (p, q) the finite sum over the contraction coordinate k of left (k, p) · right (k, q).
  It holds for all sizes and both operands' formats.
-/
import Idealize.ShloMosaic.Lib.ValueIdx
import Idealize.ShloMosaic.PureOps.Ideal.Laws

namespace Idealize.ShloMosaic.MatmulRows

open Idealize.ShloMosaic Idealize.ShloMosaic.ValueIdx

/-- The dimension numbers of that product: both operands contracted on axis 0, each one's axis 1 kept, the left
    operand's first. -/
def dims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand's row coordinate is the contraction coordinate. -/
theorem lhs_row (i : (⟨2, ![M, N]⟩ : Shape).Idx) (q : (dims K M N).contr.Idx) :
    ((dims K M N).lhsIdx i q 0).val = (q ⟨0, Nat.one_pos⟩).val :=
  (dims K M N).lhsIdx_val_of_single rfl i q

/-- The left operand's column coordinate is the result's row coordinate. -/
theorem lhs_col (i : (⟨2, ![M, N]⟩ : Shape).Idx) (q : (dims K M N).contr.Idx) :
    ((dims K M N).lhsIdx i q 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_singleton.mpr rfl)]
  rfl

/-- The right operand's row coordinate is the contraction coordinate. -/
theorem rhs_row (i : (⟨2, ![M, N]⟩ : Shape).Idx) (q : (dims K M N).contr.Idx) :
    ((dims K M N).rhsIdx i q 0).val = (q ⟨0, Nat.one_pos⟩).val :=
  (dims K M N).rhsIdx_val_of_single rfl i q

/-- The right operand's column coordinate is the result's column coordinate. -/
theorem rhs_col (i : (⟨2, ![M, N]⟩ : Shape).Idx) (q : (dims K M N).contr.Idx) :
    ((dims K M N).rhsIdx i q 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_singleton.mpr rfl)]
  rfl

/-- Entry (p, q) of the product into a zero accumulator is ∑ k, left (k, p) · right (k, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    matmul (dims K M N) prec l r (constant ⟨2, ![M, N]⟩ .f32 0x00000000#32) (ix2 p q)
      = ∑ k : Fin K, l (ix2 k p) * r (ix2 k q) := by
  show FloatOps.matmul (dims K M N) prec l r (constant ⟨2, ![M, N]⟩ .f32 0x00000000#32) (ix2 p q) = _
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_row _ _).trans hk
      | ⟨1, _⟩ => exact lhs_col _ _)
  have er : (dims K M N).rhsIdx (ix2 p q) ((contrEquiv1 (dims K M N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulRows
-- ==== Proof.KernelPoint.lean ====
/-
  One grid point of the kernel, at the exact instance.

  Point t holds rows 400·t … 400·t + 399 of adj and of w, the whole transposed feature array xt (xt (k, d) = x (d, k):
  the host transposes x and changes its format, which at the exact instance changes nothing), and the accumulator.
  The body multiplies the adj rows by xt — entry (r, d) of that product is ∑ k, adj (400·t + r, k) · xt (k, d) — and then
  contracts the product's ROWS against the rows of w, so entry (d, f) of the second product is
  ∑ r, (∑ k, adj (400·t + r, k) · xt (k, d)) · w (400·t + r, f); this is added to the accumulator.
-/
import proofs.«154773_g1185410973709_cont_fleet_179_4_alg».proof.Proof.Gen.KernelIdeal.Value
import Idealize.ShloMosaic.Lib.ValueIdx
import Idealize.ShloMosaic.Lib.ValueLayout
import Idealize.ShloMosaic.Lib.StableHlo.Run
import proofs.«154773_g1185410973709_cont_fleet_179_4_alg».proof.Proof.LibMatmulPlain
import proofs.«154773_g1185410973709_cont_fleet_179_4_alg».proof.Proof.LibMatmulRows

noncomputable section

namespace Cert.KernelIdeal.Point

open Cert.KernelIdeal Cert.KernelIdeal.Gen Idealize.ShloMosaic Idealize.ShloMosaic.ValueIdx Idealize.ShloMosaic.TcCoe
  Idealize.SL.Sem Idealize.ShloMosaic.StableHlo

/-- What the body stores, at entry (d, f): the accumulator's entry plus the sum over the point's 400 rows of
    (row r of the first product at d) · (row r of the weight block at f). -/
theorem stored_apply (x1 : Vec Ideal S400x10000 .f32) (x0 : Vec Ideal S10000x128 .bf16) (acc : Vec Ideal S128x128 .f32)
    (x2 : Vec Ideal S400x128 .f32) (d f : Fin 128) :
    k0_pay2 (F := Ideal) x1 x0 acc x2 (ix2 d f)
      = acc (ix2 d f) + ∑ r : Fin 400, (∑ k : Fin 10000, x1 (ix2 r k) * x0 (ix2 k d)) * x2 (ix2 r f) := by
  unfold k0_pay2
  refine (addf_apply _ _ _).trans ?_
  refine congrArg₂ (· + ·) (congrFun (shapeCast_self acc _) _) ?_
  refine (MatmulRows.matmul_zero_apply none _ x2 d f).trans ?_
  refine Finset.sum_congr rfl fun r _ => ?_
  refine congrArg (· * x2 (ix2 r f)) ?_
  refine (MatmulPlain.matmul_zero_apply none _ _ r d).trans ?_
  refine Finset.sum_congr rfl fun k _ => ?_
  exact congrArg (x1 (ix2 r k) * ·) (congrFun (shapeCast_self x0 _) _)

/-- The value the first point resets the accumulator to is zero everywhere. -/
theorem reset_apply (i : S128x128.Idx) : k0_pay1 (F := Ideal) i = 0 := by
  unfold k0_pay1
  exact Ideal.ofBits_zero_f32

/-- The printed index maps over the 25 points: the feature window stays at block (0, 0); the adj and w windows are at
    block (t, 0). -/
theorem index_maps : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- The transposed features as the region finds them: the host's transpose of x, its format changed. -/
theorem features_eq (c : Dev nD) :
    @Eq (Vec Ideal S10000x128 .bf16) (V m c main_v1)
      (truncf (F := Ideal) .bf16
        (transpose S10000x128 [1, 0] (m ((c : Thread nD τ).loc main_arg0)) transposes_S128x10000_S10000x128_1_0)
        bitsLt_bf16_f32) := by
  dsimp only [V, hostOps0]
  after_results

/-- Row 400·t + r of a 10000-row array, for a point t and a row r of its block. -/
def rowOf (t : Fin cfg0.N) (r : Fin 400) : Fin 10000 :=
  ⟨400 * t.val + r.val, by have h := lt_of_lt_of_eq t.isLt (show cfg0.N = 25 from N_0); have := r.isLt; omega⟩

/-- The feature block at any point is the whole transposed array: entry (k, d) is x (d, k). -/
theorem features_block (c : Dev nD) (t : Fin cfg0.N) (k : Fin 10000) (d : Fin 128) :
    (iblk m c 0 t : Vec Ideal S10000x128 .bf16) (ix2 k d) = m ((c : Thread nD τ).loc main_arg0) (ix2 d k) := by
  obtain ⟨e0, e1, -, -, -, -⟩ := index_maps t
  have he : ((cfg0.win 0).blk t).view.emb (ix2 k d) = (ix2 k d : S10000x128.Idx) := by
    funext a; apply Fin.ext
    match a with
    | ⟨0, _⟩ => show win0_0.index t (0 : Fin 2) * 10000 + 1 * k.val = k.val; omega
    | ⟨1, _⟩ => show win0_0.index t (1 : Fin 2) * 128 + 1 * d.val = d.val; omega
  show V m c main_v1 (((cfg0.win 0).blk t).view.emb (ix2 k d)) = _
  refine (congrArg (V m c main_v1) he).trans ?_
  refine (congrFun (features_eq m c) _).trans ?_
  exact transpose_ix2_apply _ _ k d

/-- The adj block at point t: entry (r, k) is adj (400·t + r, k). -/
theorem adj_block (c : Dev nD) (t : Fin cfg0.N) (r : Fin 400) (k : Fin 10000) :
    (iblk m c 1 t : Vec Ideal S400x10000 .f32) (ix2 r k) = m ((c : Thread nD τ).loc main_arg1) (ix2 (rowOf t r) k) := by
  obtain ⟨-, -, e0, e1, -, -⟩ := index_maps t
  have he : ((cfg0.win 1).blk t).view.emb (ix2 r k) = (ix2 (rowOf t r) k : S10000x10000.Idx) := by
    funext a; apply Fin.ext
    match a with
    | ⟨0, _⟩ => show win0_1.index t (0 : Fin 2) * 400 + 1 * r.val = 400 * t.val + r.val; omega
    | ⟨1, _⟩ => show win0_1.index t (1 : Fin 2) * 10000 + 1 * k.val = k.val; omega
  show V m c main_arg1 (((cfg0.win 1).blk t).view.emb (ix2 r k)) = _
  refine (congrArg (V m c main_arg1) he).trans ?_
  exact congrFun (V_main_arg1 m c) _

/-- The weight block at point t: entry (r, f) is w (400·t + r, f). -/
theorem weight_block (c : Dev nD) (t : Fin cfg0.N) (r : Fin 400) (f : Fin 128) :
    (iblk m c 2 t : Vec Ideal S400x128 .f32) (ix2 r f) = m ((c : Thread nD τ).loc main_arg2) (ix2 (rowOf t r) f) := by
  obtain ⟨-, -, -, -, e0, e1⟩ := index_maps t
  have he : ((cfg0.win 2).blk t).view.emb (ix2 r f) = (ix2 (rowOf t r) f : S10000x128.Idx) := by
    funext a; apply Fin.ext
    match a with
    | ⟨0, _⟩ => show win0_2.index t (0 : Fin 2) * 400 + 1 * r.val = 400 * t.val + r.val; omega
    | ⟨1, _⟩ => show win0_2.index t (1 : Fin 2) * 128 + 1 * f.val = f.val; omega
  show V m c main_arg2 (((cfg0.win 2).blk t).view.emb (ix2 r f)) = _
  refine (congrArg (V m c main_arg2) he).trans ?_
  exact congrFun (V_main_arg2 m c) _

end Cert.KernelIdeal.Point

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.KernelFold.lean ====
/-
  The kernel's result array at the exact instance is the graph convolution.

  The accumulator is reset to zero at the first point and every point t adds its own addend: the contributions of the
  400 nodes 400·t … 400·t + 399 to each entry. After the last of the 25 points the accumulator holds the sum of the 25
  addends, and a sum over the 10000 nodes taken 400 at a time is the sum over all of them: addition of extended reals
  is commutative and associative, so regrouping needs nothing of the summands (no finiteness).
-/
import proofs.«154773_g1185410973709_cont_fleet_179_4_alg».proof.Proof.KernelPoint
import proofs.«154773_g1185410973709_cont_fleet_179_4_alg».proof.Proof.Spec
import proofs.«154773_g1185410973709_cont_fleet_179_4_alg».proof.Proof.LibSumTiles
import Idealize.ShloMosaic.Lib.Pipeline.Value

noncomputable section

namespace Cert.KernelIdeal.Fold

open Cert.KernelIdeal Cert.KernelIdeal.Gen Cert.KernelIdeal.Point Idealize.ShloMosaic Idealize.ShloMosaic.ValueIdx
  Idealize.ShloMosaic.TcCoe Idealize.SL.Sem

variable (m : (ℓ : Loc nD τ sig) → Buf (Elt Ideal) ℓ)

/-- The three argument arrays as launched, at their literal shapes. -/
abbrev feat (c : Dev nD) : FVec Ideal ⟨2, ![128, 10000]⟩ .f32 := m ((c : Thread nD τ).loc main_arg0)
abbrev adjm (c : Dev nD) : FVec Ideal ⟨2, ![10000, 10000]⟩ .f32 := m ((c : Thread nD τ).loc main_arg1)
abbrev wgt (c : Dev nD) : FVec Ideal ⟨2, ![10000, 128]⟩ .f32 := m ((c : Thread nD τ).loc main_arg2)

/-- Point `n`'s addend at entry `i`: what the 400 nodes of its block contribute (nothing past the grid). -/
def addend (c : Dev nD) (n : ℕ) (i : S128x128.Idx) : EReal :=
  if h : n < cfg0.N then
    ∑ r : Fin 400, GraphConv.term (feat m c) (adjm m c) (wgt m c) (i 0) (i 1) (rowOf ⟨n, h⟩ r)
  else 0

/-- What point `n` stores over an accumulator `acc`: `acc` plus the point's addend, entry by entry. -/
theorem stored_eq (c : Dev nD) (n : ℕ) (h : n < cfg0.N) (acc : Vec Ideal S128x128 .f32) (i : S128x128.Idx) :
    k0_pay2 (F := Ideal) (iblk m c 1 ⟨n, h⟩) (iblk m c 0 ⟨n, h⟩) acc (iblk m c 2 ⟨n, h⟩) i = acc i + addend m c n i := by
  obtain ⟨d, f, rfl⟩ : ∃ (d f : Fin 128), i = ix2 d f := ⟨i 0, i 1, eq_ix2 i⟩
  refine (stored_apply _ _ acc _ d f).trans ?_
  refine congrArg (acc (ix2 d f) + ·) ?_
  unfold addend
  rw [dif_pos h]
  refine Finset.sum_congr rfl fun r _ => ?_
  unfold GraphConv.term GraphConv.agg
  exact congrArg₂ (· * ·)
    (Finset.sum_congr rfl fun k _ => congrArg₂ (· * ·) (adj_block m c ⟨n, h⟩ r k) (features_block m c ⟨n, h⟩ k d))
    (weight_block m c ⟨n, h⟩ r f)

/-- The accumulator after the 25th point, at entry `i`: the 25 addends summed. -/
theorem fold_apply (c : Dev nD) (h : 0 + 24 < cfg0.N) (i : S128x128.Idx) :
    Pipeline.accAt (Value.reset3 m c) (Value.step3 m c) 0 24 h i = ∑ s ∈ Finset.range 25, addend m c s i := by
  have key := Pipeline.accAt_add_apply (ι := S128x128.Idx) (β := EReal) (Value.reset3 m c) (Value.step3 m c)
    (fun _ => 0) (addend m c) 0 24
    (fun h0 j => by
      unfold Value.reset3
      refine (stored_eq m c 0 h0 _ j).trans ?_
      exact congrArg (· + addend m c 0 j) (reset_apply j))
    (fun n hn acc j _ _ => by
      unfold Value.step3
      exact stored_eq m c n hn acc j)
    24 le_rfl h i
  refine key.trans ?_
  rw [zero_add]
  exact Finset.sum_congr rfl fun s _ => by rw [Nat.zero_add]

/-- A sum over the 10000 nodes, taken 400 at a time over the 25 blocks. -/
theorem sum_nodes (g : Fin 10000 → EReal) :
    ∑ R : Fin 10000, g R = ∑ s : Fin 25, ∑ r : Fin 400, g ⟨400 * s.val + r.val, by have := s.isLt; have := r.isLt; omega⟩ :=
  SumTiles.sum_tiles 25 400 g

/-- The 25 addends summed are the graph convolution's entry. -/
theorem addends_sum (c : Dev nD) (i : S128x128.Idx) :
    ∑ s ∈ Finset.range 25, addend m c s i = GraphConv.conv (feat m c) (adjm m c) (wgt m c) i := by
  rw [Finset.sum_range]
  unfold GraphConv.conv
  rw [sum_nodes]
  refine Finset.sum_congr rfl fun s _ => ?_
  have hs : s.val < cfg0.N := lt_of_lt_of_eq s.isLt (show 25 = cfg0.N from N_0.symm)
  unfold addend
  rw [dif_pos hs]
  rfl

/-- The array the kernel leaves, at entry `i`, is the graph convolution of the arguments as launched. -/
theorem result_apply (c : Dev nD) (i : S128x128.Idx) :
    Value.G3 m c i = GraphConv.conv (feat m c) (adjm m c) (wgt m c) i := by
  have h0 : (i 0).val < 128 := (i 0).isLt
  have h1 : (i 1).val < 128 := (i 1).isLt
  have hr : Value.run3Of i = 0 := by
    show 1 * ((i 0).val / 128 - 0) + 1 * ((i 1).val / 128 - 0) = 0
    omega
  have hl : Value.loc3Of i = i := by
    funext a; apply Fin.ext
    match a with
    | ⟨0, _⟩ => show (i 0).val % 128 = (i 0).val; omega
    | ⟨1, _⟩ => show (i 1).val % 128 = (i 1).val; omega
  have hN : 0 + 24 < cfg0.N := by rw [show cfg0.N = 25 from N_0]; omega
  have same : ∀ (b : ℕ) (hb : b + 24 < cfg0.N), b = 0 →
      Pipeline.accAt (Value.reset3 m c) (Value.step3 m c) b 24 hb = Pipeline.accAt (Value.reset3 m c) (Value.step3 m c) 0 24 hN := by
    intro b hb e; subst e; rfl
  have hc : 25 * Value.run3Of i + 24 < cfg0.N := by rw [hr]; exact hN
  unfold Value.G3
  rw [dif_pos hc, hl, same _ hc (by rw [hr])]
  exact (fold_apply m c hN i).trans (addends_sum m c i)

end Cert.KernelIdeal.Fold

end
-- ==== Proof.lean ====
/-
  A graph convolution, out = (adj · xᵀ)ᵀ · w, for x of shape [128, 10000], adj of shape [10000, 10000] and w of shape
  [10000, 128]: entry (d, f) of the result is ∑ R, (∑ k, adj (R, k) · x (d, k)) · w (R, f), a sum over the 10000 nodes R.

  The reference computes it with two whole matrix products and two transposes. The kernel walks the nodes 400 at a
  time over 25 grid points, keeping the transposed features resident: at each point it multiplies the point's 400 rows
  of adj by the transposed features, contracts that product's rows against the point's 400 rows of w, and adds the
  result to a [128, 128] accumulator that the first point resets to zero; the accumulator is written back after the
  last point. The format changes on the kernel's side are the identity on extended reals.

  So at the exact instance the kernel's array is the sum of the 25 points' addends and the reference's is one sum over
  all 10000 nodes; the two agree because a finite sum of extended reals may be regrouped freely (addition is
  commutative and associative there, infinities included), so the precondition's finiteness is never opened.
  `Spec` states the common function and reads the reference's term at an entry; `KernelPoint` reads one grid point's
  stored value and its input blocks; `KernelFold` sums the points and regroups.
-/
import proofs.«154773_g1185410973709_cont_fleet_179_4_alg».proof.Defs
import proofs.«154773_g1185410973709_cont_fleet_179_4_alg».proof.Proof.Gen.Kernel.Frame
import proofs.«154773_g1185410973709_cont_fleet_179_4_alg».proof.Proof.Gen.KernelIdeal.Value
import proofs.«154773_g1185410973709_cont_fleet_179_4_alg».proof.Proof.Gen.Pre_finite_inputs
import proofs.«154773_g1185410973709_cont_fleet_179_4_alg».proof.Proof.Gen.ReferenceIdeal.Run
import proofs.«154773_g1185410973709_cont_fleet_179_4_alg».proof.Proof.Spec
import proofs.«154773_g1185410973709_cont_fleet_179_4_alg».proof.Proof.KernelFold
import Idealize.ShloMosaic.Adequacy
import Idealize.ShloMosaic.Init

noncomputable section

namespace Cert.Proof

open Idealize.ShloMosaic Idealize.ShloMosaic.ValueIdx Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The same for the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, adj and w, both programs end with the graph convolution of those arrays: the
    reference's two products read at an entry (`reference_apply`), the kernel's accumulator after its last point
    (`result_apply`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨d, f, rfl⟩ : ∃ (d f : Fin 128), i = ix2 d f := ⟨i 0, i 1, eq_ix2 i⟩
  exact (Cert.GraphConv.reference_apply _ _ _ _ _ d f).trans (Cert.KernelIdeal.Fold.result_apply m c (ix2 d f)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
